-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  main_v3
-- ==== Pre_finite_inputs_ReferenceIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S256x512 : Shape := ⟨2, ![256, 512]⟩
abbrev S512x256 : Shape := ⟨2, ![512, 256]⟩
abbrev S256x256 : Shape := ⟨2, ![256, 256]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .local _ .vmem, ⟨0, _⟩ => ⟨S256x512, .f32⟩
  | .local _ .vmem, ⟨1, _⟩ => ⟨S512x256, .f32⟩
  | .local _ .vmem, ⟨2, _⟩ => ⟨S256x256, .bf16⟩
  | .local _ .vmem, ⟨3, _⟩ => ⟨S256x256, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let c0 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32 : BitVec 32 := 256#32
  let v17 : BitVec 32 := Scalar.muli v9 c256_i32
  let v18 : Index := Scalar.indexCast v17
  ![0, v18.toNat]
def k0_dev2 (d0 : Dev nD) : Nat :=
  let c0_i32_11 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_10 : BitVec 32 := 16#32
  let v25 : BitVec 32 := Scalar.muli v9 c16_i32_10
  let v26 : BitVec 32 := Scalar.addi c0_i32_11 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v27 : BitVec 32 := Scalar.muli v5 c4_i32_12
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.muli v8 c1_i32_13
  let v30 : BitVec 32 := Scalar.addi v28 v29
  v30.toNat
def k0_off2 (d0 : Dev nD) : Fin 2 → Nat :=
  let c0_15 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_14 : BitVec 32 := 256#32
  let v31 : BitVec 32 := Scalar.muli v2 c256_i32_14
  let v32 : Index := Scalar.indexCast v31
  ![0, v32.toNat]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_16 : BitVec 32 := 256#32
  let v35 : BitVec 32 := Scalar.muli v2 c256_i32_16
  let v36 : Index := Scalar.indexCast v35
  let c0_17 : Index := 0#32
  ![v36.toNat, 0]
def k0_off4 (d0 : Dev nD) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_24 : BitVec 32 := 256#32
  let v46 : BitVec 32 := Scalar.muli v9 c256_i32_24
  let v47 : Index := Scalar.indexCast v46
  let c0_25 : Index := 0#32
  ![v47.toNat, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S256x256 : 0 < S256x256.numel
  shapeCasts_S256x256_S256x256 : S256x256.ShapeCasts S256x256
  bitsLt_bf16_f32 : FTy.bits .bf16 < FTy.bits .f32
  inb_S256x256_S256x256_0_0 : ∀ a, (![0, 0] : Fin 2 → Nat) a + S256x256.size a ≤ S256x256.size a
  packedbf16_S256x256_S256x256_0_0 : (Rect.unit (s := S256x256) ![0, 0] S256x256.size inb_S256x256_S256x256_0_0).PackedRows (EltTy.packing .bf16)
  hcc0_scratch2 : 2 + S_.numel ≤ 4
  hcc0_scratch3 : 3 + S_.numel ≤ 4
  k0_dev1_lt : ∀ d0 : Dev nD, (k0_dev1 d0) < nD
  k0_off1_inb : ∀ d0 : Dev nD, ∀ a, (k0_off1 d0) a + S256x256.size a ≤ S256x512.size a
  k0_dev2_lt : ∀ d0 : Dev nD, (k0_dev2 d0) < nD
  k0_off2_inb : ∀ d0 : Dev nD, ∀ a, (k0_off2 d0) a + S256x256.size a ≤ S256x512.size a
  k0_off3_inb : ∀ d0 : Dev nD, ∀ a, (k0_off3 d0) a + S256x256.size a ≤ S512x256.size a
  k0_off4_inb : ∀ d0 : Dev nD, ∀ a, (k0_off4 d0) a + S256x256.size a ≤ S512x256.size a
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelSched.lean ====
/-
# The exchange protocol of the two-device column swap: cells, contents, schedule, debts and levels

Device `c` of the 2 × 4 × 4 mesh (logical id `c`, coordinates `(c / 16, c / 4 % 4, c % 4)`) works with its mate
`peer c`, the device with the other first coordinate and the same other two. It signals the mate's barrier
semaphore, stores the half of its rows the mate needs (narrowed to the short float format) in a staging scratch,
waits for the mate's signal, copies that scratch into the mate's landing scratch, writes its own half of its
rows into its result, waits for the mate's copy to land, writes it (widened) into the other half of the result, and
waits for its own copy to have left.

Under the rounds discipline every cell has ONE duty in ONE round:
* the barrier cell of `c` — paid by `peer c`'s signal, one unit; it hands `c` the mate's landing scratch (at any
  contents) and the fact that the mate has reached round 0 of its receive cell;
* the receive cell of `c` — paid by `peer c`'s copy; it hands `c` its landing scratch holding the mate's staged half;
* the send cell of `c` — paid by `c`'s own copy; it hands `c` its staging scratch back, contents unchanged.
-/
import proofs.«900493_g7700000000000494_dist_a2a_v7x_xyz2x4x4_x_m256_n256_f32_1_alg».proof.Proof.Gen.Kernel
import proofs.«900493_g7700000000000494_dist_a2a_v7x_xyz2x4x4_x_m256_n256_f32_1_alg».proof.Proof.Gen.Kernel.Skeleton
import proofs.«900493_g7700000000000494_dist_a2a_v7x_xyz2x4x4_x_m256_n256_f32_1_alg».proof.Proof.Gen.Kernel.Launch
import proofs.«900493_g7700000000000494_dist_a2a_v7x_xyz2x4x4_x_m256_n256_f32_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's copy, side by side -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mate -/

/-- The device with the other first mesh coordinate: sixteen logical ids away, modulo thirty-two. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- Both device chains of the body (the signal's, the copy's) name the mate. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and cells -/

abbrev xM : Memref sig .tc .vmem S256x512 .f32 := Memref.whole cc0_stg0_0
abbrev oM : Memref sig .tc .vmem S512x256 .f32 := Memref.whole cc0_stg1_0
/-- the staging scratch (the copy's source) and the landing scratch (its destination on the mate) -/
abbrev sM : Memref sig .tc .vmem S256x256 .bf16 := Memref.whole cc0_scratch0
abbrev rM : Memref sig .tc .vmem S256x256 .bf16 := Memref.whole cc0_scratch1

/-- The runtime's barrier semaphore of collective id 0 (unscoped); the send and receive DMA semaphores (scoped scratch). -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- The staged input of device `c`: its block of rows of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The rectangles of the body's four partial accesses: the mate's columns and the own columns of the staged
    input, the own rows and the mate's rows of the staged result. -/
abbrev rMate (c : Dev nD) : Rect S256x512 := Rect.unit (s := S256x512) (k0_off1 c) S256x256.size (k0_off1_inb c)
abbrev rOwn (c : Dev nD) : Rect S256x512 := Rect.unit (s := S256x512) (k0_off2 c) S256x256.size (k0_off2_inb c)
abbrev rTop (c : Dev nD) : Rect S512x256 := Rect.unit (s := S512x256) (k0_off3 c) S256x256.size (k0_off3_inb c)
abbrev rBot (c : Dev nD) : Rect S512x256 := Rect.unit (s := S512x256) (k0_off4 c) S256x256.size (k0_off4_inb c)
abbrev r0 : Rect S256x256 := Rect.unit (s := S256x256) ![0, 0] S256x256.size inb_S256x256_S256x256_0_0

/-- What device `c` stages for its mate: the mate's columns of its rows, narrowed. -/
abbrev staged (c : Dev nD) : (cc0_scratch0 : Ref sig .tc).ty.Contents (Elt F) :=
  k0_pay3 ((xM : Memref sig .tc .vmem S256x512 .f32).view.readAt (Elt F) (rMate c).toLoadRect (xstg m ρ c))

/-- What lands on device `c`: what its mate staged. -/
abbrev landed (c : Dev nD) : Buf (Elt F) ((rM : Memref sig .tc .vmem S256x256 .bf16).view.loc (c : Thread nD τ)) := staged m ρ (peer c)

omit [FloatOps F] in
theorem landed_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

def rcvPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f
def stgPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f

omit [FloatOps F] in
instance rcvPts_storable (c : Dev nD) (f) : BI.Storable (upEmb : UEmb _ 𝕄) (rcvPts (F := F) c f) := by unfold rcvPts; infer_instance
omit [FloatOps F] in
instance stgPts_storable (c : Dev nD) (f) : BI.Storable (upEmb : UEmb _ 𝕄) (stgPts (F := F) c f) := by unfold stgPts; infer_instance

omit [FloatOps F] in
theorem rcv_set : (rM : Memref sig .tc .vmem S256x256 .bf16).view.set = Finset.univ := View.set_whole _
omit [FloatOps F] in
theorem stg_set : (sM : Memref sig .tc .vmem S256x256 .bf16).view.set = Finset.univ := View.set_whole _
omit [FloatOps F] in
theorem rcvPts_eq (c : Dev nD) (f : Buf (Elt F) ((c : Thread nD τ).loc cc0_scratch1)) :
    rcvPts c f = (((c : Thread nD τ).loc cc0_scratch1) ↦{fullShare} f : sProp 𝕄) := by unfold rcvPts; rw [rcv_set]
omit [FloatOps F] in
theorem stgPts_eq (c : Dev nD) (f : Buf (Elt F) ((c : Thread nD τ).loc cc0_scratch0)) :
    stgPts c f = (((c : Thread nD τ).loc cc0_scratch0) ↦{fullShare} f : sProp 𝕄) := by unfold stgPts; rw [stg_set]

/-! ## The schedule -/

/-- What the mate's signal hands `c`: the mate's landing scratch and that the mate has reached round 0 of its receive cell. -/
def barPay (c : Dev nD) : sProp 𝕄 := iprop((∃ f, rcvPts (peer c) f) ∗ reached ER (recvCell (peer c)) 0)
/-- What the mate's copy hands `c`: its landing scratch holding what the mate staged. -/
def recvPay (c : Dev nD) : sProp 𝕄 := rcvPts c (landed m ρ c)
/-- What `c`'s own copy hands back: its staging scratch, contents as staged. -/
def sendPay (c : Dev nD) : sProp 𝕄 := stgPts c (staged m ρ c)

abbrev IsXchg (g : GSem nD τ sig) : Prop := g.1.2 = .tc ∧ (g.2 = .reg barS ∨ g.2 = .dma sendS.sem ∨ g.2 = .dma recvS.sem)

/-- One round, one duty a cell: the barrier cell's of one unit, the send and receive cells' of the block's credit. -/
def xRd : Rounds.Schedule (GSem nD τ sig) Unit 𝕄 where
  duties g r := if r = 0 ∧ IsXchg g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) : BI.Storable (upEmb : UEmb _ 𝕄) ((xRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xRd (F := F) m ρ).duties (barCell c) 0 = {()} := by dsimp only [xRd]; exact if_pos ⟨rfl, rfl, .inl rfl⟩
theorem duties_send : (xRd (F := F) m ρ).duties (sendCell c) 0 = {()} := by dsimp only [xRd]; exact if_pos ⟨rfl, rfl, .inr (.inl rfl)⟩
theorem duties_recv : (xRd (F := F) m ρ).duties (recvCell c) 0 = {()} := by dsimp only [xRd]; exact if_pos ⟨rfl, rfl, .inr (.inr rfl)⟩
theorem duties_later (g : GSem nD τ sig) : ∀ r, 1 ≤ r → (xRd (F := F) m ρ).duties g r = ∅ :=
  fun r hr => by dsimp only [xRd]; exact if_neg fun h => by omega

theorem amount_bar (u : Unit) : (xRd (F := F) m ρ).amount (barCell c) 0 u = 1 := by dsimp only [xRd]; exact if_pos rfl
theorem amount_send (u : Unit) : (xRd (F := F) m ρ).amount (sendCell c) 0 u = N := by dsimp only [xRd]; exact if_neg send_ne_bar
theorem amount_recv (u : Unit) : (xRd (F := F) m ρ).amount (recvCell c) 0 u = N := by dsimp only [xRd]; exact if_neg recv_ne_bar

theorem expect_bar : (xRd (F := F) m ρ).expect (barCell c) 0 = 1 := by
  unfold Schedule.expect Schedule.amountOf; rw [duties_bar, Finset.sum_singleton, amount_bar]
theorem expect_send : (xRd (F := F) m ρ).expect (sendCell c) 0 = N := by
  unfold Schedule.expect Schedule.amountOf; rw [duties_send, Finset.sum_singleton, amount_send]
theorem expect_recv : (xRd (F := F) m ρ).expect (recvCell c) 0 = N := by
  unfold Schedule.expect Schedule.amountOf; rw [duties_recv, Finset.sum_singleton, amount_recv]

theorem payload_bar (u : Unit) : (xRd (F := F) m ρ).payload (barCell c) 0 u = barPay c := by dsimp only [xRd]; exact if_pos rfl
theorem payload_send (u : Unit) : (xRd (F := F) m ρ).payload (sendCell c) 0 u = sendPay m ρ c := by
  dsimp only [xRd]; rw [if_neg send_ne_bar, if_neg send_ne_recv, if_pos rfl]
theorem payload_recv (u : Unit) : (xRd (F := F) m ρ).payload (recvCell c) 0 u = recvPay m ρ c := by
  dsimp only [xRd]; rw [if_neg recv_ne_bar, if_pos rfl]

theorem rest_bar : bigSep ((xRd (F := F) m ρ).duties (barCell c) 0 \ ∅) (fun u => (xRd (F := F) m ρ).payload (barCell c) 0 u) = barPay c := by
  rw [Finset.sdiff_empty, duties_bar, bigSep_singleton, payload_bar]
theorem rest_send : bigSep ((xRd (F := F) m ρ).duties (sendCell c) 0 \ ∅) (fun u => (xRd (F := F) m ρ).payload (sendCell c) 0 u) = sendPay m ρ c := by
  rw [Finset.sdiff_empty, duties_send, bigSep_singleton, payload_send]
theorem rest_recv : bigSep ((xRd (F := F) m ρ).duties (recvCell c) 0 \ ∅) (fun u => (xRd (F := F) m ρ).payload (recvCell c) 0 u) = recvPay m ρ c := by
  rw [Finset.sdiff_empty, duties_recv, bigSep_singleton, payload_recv]

end Sched

/-! ## What each device owes at launch; the levels -/

/-- Device `c` owes its mate's receive cell the block's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell or on the send cell (level 0) is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its mate's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelProof

end
-- ==== Proof.KernelBody.lean ====
/-
# The body of one device, stepped once at a symbolic device

From the exchange's ghost state at round 0 of its three cells, its launch credit and its scratch buffers, to the
landing scratch holding what the mate staged, the staged result holding the own half and the mate's half, and
the two own DMA cells closed at zero.
-/
import proofs.«900493_g7700000000000494_dist_a2a_v7x_xyz2x4x4_x_m256_n256_f32_1_alg».proof.Proof.KernelSched
import Idealize.ShloMosaic.Lib.Pipeline.FrameBody

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body loads of its own columns, and of the landing scratch. -/
abbrev ownLd (c : Dev nD) : Vec F S256x256 .f32 :=
  (xM : Memref sig .tc .vmem S256x512 .f32).view.readAt (Elt F) (rOwn c).toLoadRect (xstg m ρ c)
abbrev landLd (c : Dev nD) : Vec F S256x256 .bf16 :=
  (rM : Memref sig .tc .vmem S256x256 .bf16).view.readAt (Elt F) r0.toLoadRect (landed m ρ c)

/-- The staged result of device `c` after the body: its own columns of its rows in its own block of rows, the mate's
    staged half, widened, in the other block of rows (the later store first). -/
def outAt (c : Dev nD) : (cc0_stg1_0 : Ref sig .tc).ty.Contents (Elt F) :=
  View.canon [⟨rBot c, k0_pay2 (landLd m ρ c)⟩, ⟨rTop c, k0_pay1 (ownLd m ρ c)⟩]

/-- The cells' invariants device `c`'s body opens, under the names `K` the launch allocated them at: its own three,
    its mate's barrier cell (its signal) and receive cell (its copy). -/
def invs (K : Dev nD × Fin 3 → ℕ) (c : Dev nD) : sProp 𝕄 :=
  iprop(cellInv ER (xRd m ρ) (K (c, 0)) (barCell c) ∗ cellInv ER (xRd m ρ) (K (c, 1)) (sendCell c) ∗ cellInv ER (xRd m ρ) (K (c, 2)) (recvCell c)
    ∗ cellInv ER (xRd m ρ) (K (peer c, 0)) (barCell (peer c)) ∗ cellInv ER (xRd m ρ) (K (peer c, 2)) (recvCell (peer c)))

instance invs_persistent (K : Dev nD × Fin 3 → ℕ) (c : Dev nD) : BI.Persistent (invs m ρ K c) := by unfold invs; infer_instance

/-- The tokens of the duties device `c` pays: the mate's barrier duty, the mate's receive duty, its own send duty. -/
def payToks (c : Dev nD) : sProp 𝕄 := iprop(dutyTok ER (barCell (peer c)) 0 () ∗ dutyTok ER (recvCell (peer c)) 0 () ∗ dutyTok ER (sendCell c) 0 ())

/-- The exchange's ghost state device `c` starts from. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from: that at some names, its two credit tokens and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, stgPts c f) ∗ (∃ f, rcvPts c f))
/-- After the point: both scratch buffers at their final contents, the two OWN cells at zero, closed. -/
def Φ₁ (c : Dev nD) : sProp 𝕄 := iprop(stgPts c (staged m ρ c) ∗ rcvPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer held through its memref's view is the buffer held. -/
theorem whole_pts_eq (c : Dev nD) (b : Ref sig .tc) (f : Buf (Elt F) ((c : Thread nD τ).loc b)) :
    (((Memref.whole b : Memref sig .tc b.space b.ty.shape b.ty.elt).view.loc (c : Thread nD τ) ↦[(Memref.whole b : Memref sig .tc b.space b.ty.shape b.ty.elt).view.set]{fullShare} f : sProp 𝕄))
      = (((c : Thread nD τ).loc b) ↦{fullShare} f : sProp 𝕄) := by rw [View.set_whole]

omit [FloatOps F] in
theorem hz2 : (![0, 0] : Fin 2 → Nat) = fun _ => 0 := funext fun a => by fin_cases a <;> rfl

omit [FloatOps F] in
/-- One store through the whole staging scratch leaves its payload. -/
theorem staged_write₀ (fs0 w : (cc0_scratch0 : Ref sig .tc).ty.Contents (Elt F)) :
    ((sM : Memref sig .tc .vmem S256x256 .bf16).access r0 : View sig .tc _ _ _).write (Elt F) fs0 w Finset.univ = w :=
  Memref.write_access_unit_zero_univ (Elt F) cc0_scratch0 hz2 _ fs0 w
omit [FloatOps F] in
theorem staged_write (fs0 w : (cc0_scratch0 : Ref sig .tc).ty.Contents (Elt F)) :
    (sM : Memref sig .tc .vmem S256x256 .bf16).view.writes (Elt F) fs0 [⟨r0, w⟩] = w :=
  staged_write₀ fs0 w

omit [FloatOps F] in
/-- The two row blocks of the staged result tile it: every index lies in the own block of rows or in the mate's. -/
theorem cover_out (c : Dev nD) (y : S512x256.Idx) : y ∈ (rBot c).set ∨ y ∈ (rTop c).set := by
  have h0 : (y 0).val < 512 := (y 0).isLt
  have h1 : (y 1).val < 256 := (y 1).isLt
  have hc : c.val / 16 = 0 ∨ c.val / 16 = 1 := by have : c.val < 32 := c.isLt; omega
  have key : ∀ (o : ℕ), (o ≤ (y 0).val ∧ (y 0).val < o + 256) →
      ∀ a : Fin 2, (![o, 0] : Fin 2 → ℕ) a ≤ (y a).val ∧ (y a).val < (![o, 0] : Fin 2 → ℕ) a + S256x256.size a := by
    intro o ho a
    fin_cases a
    · exact ho
    · exact ⟨Nat.zero_le _, by show (y 1).val < 0 + 256; omega⟩
  by_cases hy : (y 0).val < 256 <;> rcases hc with hc | hc
  · exact Or.inr (Rect.mem_set_unit.mpr (by rw [k0_off3_eq c, hc]; exact key 0 ⟨Nat.zero_le _, by omega⟩))
  · exact Or.inl (Rect.mem_set_unit.mpr (by rw [k0_off4_eq c, hc]; exact key 0 ⟨Nat.zero_le _, by omega⟩))
  · exact Or.inl (Rect.mem_set_unit.mpr (by rw [k0_off4_eq c, hc]; exact key 256 ⟨by omega, by omega⟩))
  · exact Or.inr (Rect.mem_set_unit.mpr (by rw [k0_off3_eq c, hc]; exact key 256 ⟨by omega, by omega⟩))

/-- So the two stores leave the staged result at its canonical contents, whatever it held before. -/
theorem out_writes (c : Dev nD) (g1 : (cc0_stg1_0 : Ref sig .tc).ty.Contents (Elt F)) :
    (oM : Memref sig .tc .vmem S512x256 .f32).view.writes (Elt F) g1
      [⟨rBot c, k0_pay2 (landLd m ρ c)⟩, ⟨rTop c, k0_pay1 (ownLd m ρ c)⟩] = outAt m ρ c := by
  have h := View.read_writes_eq_canon (oM : Memref sig .tc .vmem S512x256 .f32).view g1
    [⟨rBot c, k0_pay2 (landLd m ρ c)⟩, ⟨rTop c, k0_pay1 (ownLd m ρ c)⟩] (fun y => by
      rcases cover_out c y with h | h
      · exact ⟨_, List.mem_cons_self .., h⟩
      · exact ⟨_, List.mem_cons_of_mem _ (List.mem_cons_self ..), h⟩)
  exact h

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ (∃ f, stgPts c f) ∗ (∃ f, rcvPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- The schedule's payloads spelt as the buffers they hand over, at the device's own cells and at its mate's (the
    mate's mate resolved). -/
theorem pay_bar_own (c : Dev nD) (u : Unit) : (xRd (F := F) m ρ).payload (barCell c) 0 u
    = iprop((∃ f, ((rM : Memref sig .tc .vmem S256x256 .bf16).view.loc (peer c : Thread nD τ) ↦[(rM : Memref sig .tc .vmem S256x256 .bf16).view.set]{fullShare} f)) ∗ reached ER (recvCell (peer c)) 0) := by
  rw [payload_bar]; rfl
theorem pay_bar_mate (c : Dev nD) (u : Unit) : (xRd (F := F) m ρ).payload (barCell (peer c)) 0 u
    = iprop((∃ f, ((rM : Memref sig .tc .vmem S256x256 .bf16).view.loc (c : Thread nD τ) ↦[(rM : Memref sig .tc .vmem S256x256 .bf16).view.set]{fullShare} f)) ∗ reached ER (recvCell c) 0) := by
  rw [payload_bar]; unfold barPay rcvPts; rw [peer_peer]
theorem pay_send_own (c : Dev nD) (u : Unit) : (xRd (F := F) m ρ).payload (sendCell c) 0 u
    = ((sM : Memref sig .tc .vmem S256x256 .bf16).view.loc (c : Thread nD τ) ↦[(sM : Memref sig .tc .vmem S256x256 .bf16).view.set]{fullShare} staged m ρ c) := by
  rw [payload_send]; rfl
theorem pay_recv_own (c : Dev nD) (u : Unit) : (xRd (F := F) m ρ).payload (recvCell c) 0 u
    = ((rM : Memref sig .tc .vmem S256x256 .bf16).view.loc (c : Thread nD τ) ↦[(rM : Memref sig .tc .vmem S256x256 .bf16).view.set]{fullShare} landed m ρ c) := by
  rw [payload_recv]; rfl
theorem pay_recv_mate (c : Dev nD) (u : Unit) : (xRd (F := F) m ρ).payload (recvCell (peer c)) 0 u
    = ((rM : Memref sig .tc .vmem S256x256 .bf16).view.loc (peer c : Thread nD τ) ↦[(rM : Memref sig .tc .vmem S256x256 .bf16).view.set]{fullShare} staged m ρ c) := by
  rw [payload_recv]; unfold recvPay rcvPts landed; rw [peer_peer]

attribute [local sl_rounds] duties_bar duties_send duties_recv amount_bar amount_send amount_recv expect_bar expect_send expect_recv
  pay_bar_own pay_send_own pay_recv_own
attribute [local sl_rounds high] pay_bar_mate pay_recv_mate
attribute [local sl_canon] dev1_eq dev2_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs payToks
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hstg⟩, ⟨%fr0, Hrcv⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ stgPts rcvPts
  ihave Hx' := (Entails.of_eq (whole_pts_eq (F := F) c cc0_stg0_0 (xstg m ρ c)).symm) $$ Hx
  ihave Hout' := (Entails.of_eq (whole_pts_eq (F := F) c cc0_stg1_0 g1).symm) $$ Hout
  have hmwB := mayWait_bar (F := F) c
  sl_unfold [cc0_body]
  sl_exec
  rw [staged_write]
  sl_exec (disch := simp only [dev2_eq])
  -- the staged result is the canon of its two stores
  ihave Hout' := (Entails.of_eq (congrArg (fun X => ((View.loc (c : Thread nD τ) (Memref.whole cc0_stg1_0 : Memref sig .tc .vmem S512x256 .f32).view
      ↦[(Memref.whole cc0_stg1_0 : Memref sig .tc .vmem S512x256 .f32).view.set]{fullShare} X : sProp 𝕄))) (out_writes m ρ c g1))) $$ Hout'
  -- the two own cells close: their counters at zero are the device's again
  imod (Rounds.cell_close ER (xRd m ρ) (Set.mem_univ (K (c, 1))) (fun h => h) (R := 1) (duties_later m ρ (sendCell c))) $$ [HatS] with HzS
  · isplitr; · iexact HIsnd
    iexact HatS
  imod (Rounds.cell_close ER (xRd m ρ) (Set.mem_univ (K (c, 2))) (fun h => h) (R := 1) (duties_later m ρ (recvCell c))) $$ [HatV] with HzV
  · isplitr; · iexact HIrcv
    iexact HatV
  rw [wp_ret]; imodintro
  iapply Hk
  unfold bodyPost Φ₁ Dat.owesAt Pipeline.owesWithin stgPts rcvPts
  rw [show (dats m ρ 0 c).owed t₀.succ = 0 from rfl]
  ihave Hx := (Entails.of_eq (whole_pts_eq (F := F) c cc0_stg0_0 (xstg m ρ c))) $$ Hx'
  ihave Hout := (Entails.of_eq (whole_pts_eq (F := F) c cc0_stg1_0 (outAt m ρ c))) $$ Hout'
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hs, Hr⟩, Ho, Hx, Hout⟩
  iapply (sound_body m ρ K c fun _ => bodyPost m ρ c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

end Body

/-- info: 'Cert.KernelProof.body_obligation' depends on axioms: [propext, Classical.choice, Quot.sound] -/
#guard_msgs in #print axioms body_obligation

end Cert.KernelProof

end
-- ==== Proof.KernelLaunch.lean ====
/-
# The launch: the exchange's cells allocated for all devices at once, the debts dealt, the run of @main

The barrier semaphore is the runtime's (not scoped to the launch): its counter at zero arrives with the launch's
unscoped semaphores, the send and receive semaphores with the kernel's own. All three cells of every device are
allocated under one update, the duty tokens dealt to the devices that pay them (the barrier's and the receive
cell's to the mate, the send cell's to the device itself), and the launch credit read off what the mates owe.
-/
import proofs.«900493_g7700000000000494_dist_a2a_v7x_xyz2x4x4_x_m256_n256_f32_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩
def xToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf xCells xToks)

/-- The duty tokens of device `c`'s own cells. -/
def toks (c : Dev nD) : sProp 𝕄 := iprop(dutyTok ER (barCell c) 0 () ∗ dutyTok ER (sendCell c) 0 () ∗ dutyTok ER (recvCell c) 0 ())

/-- What the launch element deals device `c`; -/
def G (c : Dev nD) : sProp 𝕄 :=
  iprop((bigSep Finset.univ fun k : Fin 3 => roundState ER (xRd m ρ) (kcell (c, k)) 0)
    ∗ (bigSep Finset.univ fun k : Fin 3 => iprop(atPos ER (kcell (c, k)) 0 ∅ 0 ∗ reached ER (kcell (c, k)) 0)) ∗ toks c)
/-- what the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xRd m ρ) (K ck) (kcell ck))
    ∗ bigSep Finset.univ fun ck : Dev nD × Fin 3 => reached ER (kcell ck) 0)
instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (xRd m ρ) (K ck) (kcell ck) : sProp 𝕄)) ⊢ cellInv ER (xRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear G' ghost invs
  iintro ⟨⟨#HI, #HR⟩, ⟨HaB, HaS, HaV⟩, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  iexact Ht

omit [FloatOps F] in
/-- The barrier and receive tokens swapped between mates. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_univ_equiv swap (fun c : Dev nD => (dutyTok ER (barCell c) 0 () : sProp 𝕄)),
    bigSep_univ_equiv swap (fun c : Dev nD => (dutyTok ER (recvCell c) 0 () : sProp 𝕄))]
  iintro ⟨HB, HS, HV⟩
  isplitl [HB]; · iexact HB
  isplitl [HV]; · iexact HV
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (xRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
/-- What device `d` owes device `c`'s barrier cell: a unit if it is `c`'s mate; -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]
omit [FloatOps F] in
/-- its receive cell: the block's credit if it is `c`'s mate. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) : (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩, ⟨%g, Hg⟩⟩
  isplitl [Hs]; · iexact Hs
  isplitl [Hf]
  · iexists f; rw [stgPts_eq]; iexact Hf
  · iexists g; rw [rcvPts_eq]; iexact Hg

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hs, Hr, HzS, HzV⟩
  isplitr; · iempintro
  isplitl [HzS HzV]
  · isplitl [HzS] <;> iassumption
  isplitl [Hs]
  · iexists (staged m ρ c); rw [← stgPts_eq]; iexact Hs
  · iexists (landed m ρ c); rw [← rcvPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: every weakly
    fair execution of @main — the sixteen pairs of mates handshaking on the barrier semaphore, then exchanging their
    staged halves — terminates, and every final state has each device's result array at the computed contents and its
    argument unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelProof

end
-- ==== Proof.KernelIdealSched.lean ====
/-
# The exchange protocol of the two-device column swap: cells, contents, schedule, debts and levels

Device `c` of the 2 × 4 × 4 mesh (logical id `c`, coordinates `(c / 16, c / 4 % 4, c % 4)`) works with its mate
`peer c`, the device with the other first coordinate and the same other two. It signals the mate's barrier
semaphore, stores the half of its rows the mate needs (narrowed to the short float format) in a staging scratch,
waits for the mate's signal, copies that scratch into the mate's landing scratch, writes its own half of its
rows into its result, waits for the mate's copy to land, writes it (widened) into the other half of the result, and
waits for its own copy to have left.

Under the rounds discipline every cell has ONE duty in ONE round:
* the barrier cell of `c` — paid by `peer c`'s signal, one unit; it hands `c` the mate's landing scratch (at any
  contents) and the fact that the mate has reached round 0 of its receive cell;
* the receive cell of `c` — paid by `peer c`'s copy; it hands `c` its landing scratch holding the mate's staged half;
* the send cell of `c` — paid by `c`'s own copy; it hands `c` its staging scratch back, contents unchanged.
-/
import proofs.«900493_g7700000000000494_dist_a2a_v7x_xyz2x4x4_x_m256_n256_f32_1_alg».proof.Proof.Gen.KernelIdeal
import proofs.«900493_g7700000000000494_dist_a2a_v7x_xyz2x4x4_x_m256_n256_f32_1_alg».proof.Proof.Gen.KernelIdeal.Skeleton
import proofs.«900493_g7700000000000494_dist_a2a_v7x_xyz2x4x4_x_m256_n256_f32_1_alg».proof.Proof.Gen.KernelIdeal.Launch
import proofs.«900493_g7700000000000494_dist_a2a_v7x_xyz2x4x4_x_m256_n256_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's copy, side by side -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mate -/

/-- The device with the other first mesh coordinate: sixteen logical ids away, modulo thirty-two. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- Both device chains of the body (the signal's, the copy's) name the mate. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and cells -/

abbrev xM : Memref sig .tc .vmem S256x512 .f32 := Memref.whole cc0_stg0_0
abbrev oM : Memref sig .tc .vmem S512x256 .f32 := Memref.whole cc0_stg1_0
/-- the staging scratch (the copy's source) and the landing scratch (its destination on the mate) -/
abbrev sM : Memref sig .tc .vmem S256x256 .bf16 := Memref.whole cc0_scratch0
abbrev rM : Memref sig .tc .vmem S256x256 .bf16 := Memref.whole cc0_scratch1

/-- The runtime's barrier semaphore of collective id 0 (unscoped); the send and receive DMA semaphores (scoped scratch). -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- The staged input of device `c`: its block of rows of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The rectangles of the body's four partial accesses: the mate's columns and the own columns of the staged
    input, the own rows and the mate's rows of the staged result. -/
abbrev rMate (c : Dev nD) : Rect S256x512 := Rect.unit (s := S256x512) (k0_off1 c) S256x256.size (k0_off1_inb c)
abbrev rOwn (c : Dev nD) : Rect S256x512 := Rect.unit (s := S256x512) (k0_off2 c) S256x256.size (k0_off2_inb c)
abbrev rTop (c : Dev nD) : Rect S512x256 := Rect.unit (s := S512x256) (k0_off3 c) S256x256.size (k0_off3_inb c)
abbrev rBot (c : Dev nD) : Rect S512x256 := Rect.unit (s := S512x256) (k0_off4 c) S256x256.size (k0_off4_inb c)
abbrev r0 : Rect S256x256 := Rect.unit (s := S256x256) ![0, 0] S256x256.size inb_S256x256_S256x256_0_0

/-- What device `c` stages for its mate: the mate's columns of its rows, narrowed. -/
abbrev staged (c : Dev nD) : (cc0_scratch0 : Ref sig .tc).ty.Contents (Elt F) :=
  k0_pay3 ((xM : Memref sig .tc .vmem S256x512 .f32).view.readAt (Elt F) (rMate c).toLoadRect (xstg m ρ c))

/-- What lands on device `c`: what its mate staged. -/
abbrev landed (c : Dev nD) : Buf (Elt F) ((rM : Memref sig .tc .vmem S256x256 .bf16).view.loc (c : Thread nD τ)) := staged m ρ (peer c)

omit [FloatOps F] in
theorem landed_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

def rcvPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f
def stgPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f

omit [FloatOps F] in
instance rcvPts_storable (c : Dev nD) (f) : BI.Storable (upEmb : UEmb _ 𝕄) (rcvPts (F := F) c f) := by unfold rcvPts; infer_instance
omit [FloatOps F] in
instance stgPts_storable (c : Dev nD) (f) : BI.Storable (upEmb : UEmb _ 𝕄) (stgPts (F := F) c f) := by unfold stgPts; infer_instance

omit [FloatOps F] in
theorem rcv_set : (rM : Memref sig .tc .vmem S256x256 .bf16).view.set = Finset.univ := View.set_whole _
omit [FloatOps F] in
theorem stg_set : (sM : Memref sig .tc .vmem S256x256 .bf16).view.set = Finset.univ := View.set_whole _
omit [FloatOps F] in
theorem rcvPts_eq (c : Dev nD) (f : Buf (Elt F) ((c : Thread nD τ).loc cc0_scratch1)) :
    rcvPts c f = (((c : Thread nD τ).loc cc0_scratch1) ↦{fullShare} f : sProp 𝕄) := by unfold rcvPts; rw [rcv_set]
omit [FloatOps F] in
theorem stgPts_eq (c : Dev nD) (f : Buf (Elt F) ((c : Thread nD τ).loc cc0_scratch0)) :
    stgPts c f = (((c : Thread nD τ).loc cc0_scratch0) ↦{fullShare} f : sProp 𝕄) := by unfold stgPts; rw [stg_set]

/-! ## The schedule -/

/-- What the mate's signal hands `c`: the mate's landing scratch and that the mate has reached round 0 of its receive cell. -/
def barPay (c : Dev nD) : sProp 𝕄 := iprop((∃ f, rcvPts (peer c) f) ∗ reached ER (recvCell (peer c)) 0)
/-- What the mate's copy hands `c`: its landing scratch holding what the mate staged. -/
def recvPay (c : Dev nD) : sProp 𝕄 := rcvPts c (landed m ρ c)
/-- What `c`'s own copy hands back: its staging scratch, contents as staged. -/
def sendPay (c : Dev nD) : sProp 𝕄 := stgPts c (staged m ρ c)

abbrev IsXchg (g : GSem nD τ sig) : Prop := g.1.2 = .tc ∧ (g.2 = .reg barS ∨ g.2 = .dma sendS.sem ∨ g.2 = .dma recvS.sem)

/-- One round, one duty a cell: the barrier cell's of one unit, the send and receive cells' of the block's credit. -/
def xRd : Rounds.Schedule (GSem nD τ sig) Unit 𝕄 where
  duties g r := if r = 0 ∧ IsXchg g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) : BI.Storable (upEmb : UEmb _ 𝕄) ((xRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xRd (F := F) m ρ).duties (barCell c) 0 = {()} := by dsimp only [xRd]; exact if_pos ⟨rfl, rfl, .inl rfl⟩
theorem duties_send : (xRd (F := F) m ρ).duties (sendCell c) 0 = {()} := by dsimp only [xRd]; exact if_pos ⟨rfl, rfl, .inr (.inl rfl)⟩
theorem duties_recv : (xRd (F := F) m ρ).duties (recvCell c) 0 = {()} := by dsimp only [xRd]; exact if_pos ⟨rfl, rfl, .inr (.inr rfl)⟩
theorem duties_later (g : GSem nD τ sig) : ∀ r, 1 ≤ r → (xRd (F := F) m ρ).duties g r = ∅ :=
  fun r hr => by dsimp only [xRd]; exact if_neg fun h => by omega

theorem amount_bar (u : Unit) : (xRd (F := F) m ρ).amount (barCell c) 0 u = 1 := by dsimp only [xRd]; exact if_pos rfl
theorem amount_send (u : Unit) : (xRd (F := F) m ρ).amount (sendCell c) 0 u = N := by dsimp only [xRd]; exact if_neg send_ne_bar
theorem amount_recv (u : Unit) : (xRd (F := F) m ρ).amount (recvCell c) 0 u = N := by dsimp only [xRd]; exact if_neg recv_ne_bar

theorem expect_bar : (xRd (F := F) m ρ).expect (barCell c) 0 = 1 := by
  unfold Schedule.expect Schedule.amountOf; rw [duties_bar, Finset.sum_singleton, amount_bar]
theorem expect_send : (xRd (F := F) m ρ).expect (sendCell c) 0 = N := by
  unfold Schedule.expect Schedule.amountOf; rw [duties_send, Finset.sum_singleton, amount_send]
theorem expect_recv : (xRd (F := F) m ρ).expect (recvCell c) 0 = N := by
  unfold Schedule.expect Schedule.amountOf; rw [duties_recv, Finset.sum_singleton, amount_recv]

theorem payload_bar (u : Unit) : (xRd (F := F) m ρ).payload (barCell c) 0 u = barPay c := by dsimp only [xRd]; exact if_pos rfl
theorem payload_send (u : Unit) : (xRd (F := F) m ρ).payload (sendCell c) 0 u = sendPay m ρ c := by
  dsimp only [xRd]; rw [if_neg send_ne_bar, if_neg send_ne_recv, if_pos rfl]
theorem payload_recv (u : Unit) : (xRd (F := F) m ρ).payload (recvCell c) 0 u = recvPay m ρ c := by
  dsimp only [xRd]; rw [if_neg recv_ne_bar, if_pos rfl]

theorem rest_bar : bigSep ((xRd (F := F) m ρ).duties (barCell c) 0 \ ∅) (fun u => (xRd (F := F) m ρ).payload (barCell c) 0 u) = barPay c := by
  rw [Finset.sdiff_empty, duties_bar, bigSep_singleton, payload_bar]
theorem rest_send : bigSep ((xRd (F := F) m ρ).duties (sendCell c) 0 \ ∅) (fun u => (xRd (F := F) m ρ).payload (sendCell c) 0 u) = sendPay m ρ c := by
  rw [Finset.sdiff_empty, duties_send, bigSep_singleton, payload_send]
theorem rest_recv : bigSep ((xRd (F := F) m ρ).duties (recvCell c) 0 \ ∅) (fun u => (xRd (F := F) m ρ).payload (recvCell c) 0 u) = recvPay m ρ c := by
  rw [Finset.sdiff_empty, duties_recv, bigSep_singleton, payload_recv]

end Sched

/-! ## What each device owes at launch; the levels -/

/-- Device `c` owes its mate's receive cell the block's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell or on the send cell (level 0) is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its mate's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdealProof

end
-- ==== Proof.KernelIdealBody.lean ====
/-
# The body of one device, stepped once at a symbolic device

From the exchange's ghost state at round 0 of its three cells, its launch credit and its scratch buffers, to the
landing scratch holding what the mate staged, the staged result holding the own half and the mate's half, and
the two own DMA cells closed at zero.
-/
import proofs.«900493_g7700000000000494_dist_a2a_v7x_xyz2x4x4_x_m256_n256_f32_1_alg».proof.Proof.KernelIdealSched
import Idealize.ShloMosaic.Lib.Pipeline.FrameBody

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body loads of its own columns, and of the landing scratch. -/
abbrev ownLd (c : Dev nD) : Vec F S256x256 .f32 :=
  (xM : Memref sig .tc .vmem S256x512 .f32).view.readAt (Elt F) (rOwn c).toLoadRect (xstg m ρ c)
abbrev landLd (c : Dev nD) : Vec F S256x256 .bf16 :=
  (rM : Memref sig .tc .vmem S256x256 .bf16).view.readAt (Elt F) r0.toLoadRect (landed m ρ c)

/-- The staged result of device `c` after the body: its own columns of its rows in its own block of rows, the mate's
    staged half, widened, in the other block of rows (the later store first). -/
def outAt (c : Dev nD) : (cc0_stg1_0 : Ref sig .tc).ty.Contents (Elt F) :=
  View.canon [⟨rBot c, k0_pay2 (landLd m ρ c)⟩, ⟨rTop c, k0_pay1 (ownLd m ρ c)⟩]

/-- The cells' invariants device `c`'s body opens, under the names `K` the launch allocated them at: its own three,
    its mate's barrier cell (its signal) and receive cell (its copy). -/
def invs (K : Dev nD × Fin 3 → ℕ) (c : Dev nD) : sProp 𝕄 :=
  iprop(cellInv ER (xRd m ρ) (K (c, 0)) (barCell c) ∗ cellInv ER (xRd m ρ) (K (c, 1)) (sendCell c) ∗ cellInv ER (xRd m ρ) (K (c, 2)) (recvCell c)
    ∗ cellInv ER (xRd m ρ) (K (peer c, 0)) (barCell (peer c)) ∗ cellInv ER (xRd m ρ) (K (peer c, 2)) (recvCell (peer c)))

instance invs_persistent (K : Dev nD × Fin 3 → ℕ) (c : Dev nD) : BI.Persistent (invs m ρ K c) := by unfold invs; infer_instance

/-- The tokens of the duties device `c` pays: the mate's barrier duty, the mate's receive duty, its own send duty. -/
def payToks (c : Dev nD) : sProp 𝕄 := iprop(dutyTok ER (barCell (peer c)) 0 () ∗ dutyTok ER (recvCell (peer c)) 0 () ∗ dutyTok ER (sendCell c) 0 ())

/-- The exchange's ghost state device `c` starts from. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from: that at some names, its two credit tokens and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, stgPts c f) ∗ (∃ f, rcvPts c f))
/-- After the point: both scratch buffers at their final contents, the two OWN cells at zero, closed. -/
def Φ₁ (c : Dev nD) : sProp 𝕄 := iprop(stgPts c (staged m ρ c) ∗ rcvPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer held through its memref's view is the buffer held. -/
theorem whole_pts_eq (c : Dev nD) (b : Ref sig .tc) (f : Buf (Elt F) ((c : Thread nD τ).loc b)) :
    (((Memref.whole b : Memref sig .tc b.space b.ty.shape b.ty.elt).view.loc (c : Thread nD τ) ↦[(Memref.whole b : Memref sig .tc b.space b.ty.shape b.ty.elt).view.set]{fullShare} f : sProp 𝕄))
      = (((c : Thread nD τ).loc b) ↦{fullShare} f : sProp 𝕄) := by rw [View.set_whole]

omit [FloatOps F] in
theorem hz2 : (![0, 0] : Fin 2 → Nat) = fun _ => 0 := funext fun a => by fin_cases a <;> rfl

omit [FloatOps F] in
/-- One store through the whole staging scratch leaves its payload. -/
theorem staged_write₀ (fs0 w : (cc0_scratch0 : Ref sig .tc).ty.Contents (Elt F)) :
    ((sM : Memref sig .tc .vmem S256x256 .bf16).access r0 : View sig .tc _ _ _).write (Elt F) fs0 w Finset.univ = w :=
  Memref.write_access_unit_zero_univ (Elt F) cc0_scratch0 hz2 _ fs0 w
omit [FloatOps F] in
theorem staged_write (fs0 w : (cc0_scratch0 : Ref sig .tc).ty.Contents (Elt F)) :
    (sM : Memref sig .tc .vmem S256x256 .bf16).view.writes (Elt F) fs0 [⟨r0, w⟩] = w :=
  staged_write₀ fs0 w

omit [FloatOps F] in
/-- The two row blocks of the staged result tile it: every index lies in the own block of rows or in the mate's. -/
theorem cover_out (c : Dev nD) (y : S512x256.Idx) : y ∈ (rBot c).set ∨ y ∈ (rTop c).set := by
  have h0 : (y 0).val < 512 := (y 0).isLt
  have h1 : (y 1).val < 256 := (y 1).isLt
  have hc : c.val / 16 = 0 ∨ c.val / 16 = 1 := by have : c.val < 32 := c.isLt; omega
  have key : ∀ (o : ℕ), (o ≤ (y 0).val ∧ (y 0).val < o + 256) →
      ∀ a : Fin 2, (![o, 0] : Fin 2 → ℕ) a ≤ (y a).val ∧ (y a).val < (![o, 0] : Fin 2 → ℕ) a + S256x256.size a := by
    intro o ho a
    fin_cases a
    · exact ho
    · exact ⟨Nat.zero_le _, by show (y 1).val < 0 + 256; omega⟩
  by_cases hy : (y 0).val < 256 <;> rcases hc with hc | hc
  · exact Or.inr (Rect.mem_set_unit.mpr (by rw [k0_off3_eq c, hc]; exact key 0 ⟨Nat.zero_le _, by omega⟩))
  · exact Or.inl (Rect.mem_set_unit.mpr (by rw [k0_off4_eq c, hc]; exact key 0 ⟨Nat.zero_le _, by omega⟩))
  · exact Or.inl (Rect.mem_set_unit.mpr (by rw [k0_off4_eq c, hc]; exact key 256 ⟨by omega, by omega⟩))
  · exact Or.inr (Rect.mem_set_unit.mpr (by rw [k0_off3_eq c, hc]; exact key 256 ⟨by omega, by omega⟩))

/-- So the two stores leave the staged result at its canonical contents, whatever it held before. -/
theorem out_writes (c : Dev nD) (g1 : (cc0_stg1_0 : Ref sig .tc).ty.Contents (Elt F)) :
    (oM : Memref sig .tc .vmem S512x256 .f32).view.writes (Elt F) g1
      [⟨rBot c, k0_pay2 (landLd m ρ c)⟩, ⟨rTop c, k0_pay1 (ownLd m ρ c)⟩] = outAt m ρ c := by
  have h := View.read_writes_eq_canon (oM : Memref sig .tc .vmem S512x256 .f32).view g1
    [⟨rBot c, k0_pay2 (landLd m ρ c)⟩, ⟨rTop c, k0_pay1 (ownLd m ρ c)⟩] (fun y => by
      rcases cover_out c y with h | h
      · exact ⟨_, List.mem_cons_self .., h⟩
      · exact ⟨_, List.mem_cons_of_mem _ (List.mem_cons_self ..), h⟩)
  exact h

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ (∃ f, stgPts c f) ∗ (∃ f, rcvPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- The schedule's payloads spelt as the buffers they hand over, at the device's own cells and at its mate's (the
    mate's mate resolved). -/
theorem pay_bar_own (c : Dev nD) (u : Unit) : (xRd (F := F) m ρ).payload (barCell c) 0 u
    = iprop((∃ f, ((rM : Memref sig .tc .vmem S256x256 .bf16).view.loc (peer c : Thread nD τ) ↦[(rM : Memref sig .tc .vmem S256x256 .bf16).view.set]{fullShare} f)) ∗ reached ER (recvCell (peer c)) 0) := by
  rw [payload_bar]; rfl
theorem pay_bar_mate (c : Dev nD) (u : Unit) : (xRd (F := F) m ρ).payload (barCell (peer c)) 0 u
    = iprop((∃ f, ((rM : Memref sig .tc .vmem S256x256 .bf16).view.loc (c : Thread nD τ) ↦[(rM : Memref sig .tc .vmem S256x256 .bf16).view.set]{fullShare} f)) ∗ reached ER (recvCell c) 0) := by
  rw [payload_bar]; unfold barPay rcvPts; rw [peer_peer]
theorem pay_send_own (c : Dev nD) (u : Unit) : (xRd (F := F) m ρ).payload (sendCell c) 0 u
    = ((sM : Memref sig .tc .vmem S256x256 .bf16).view.loc (c : Thread nD τ) ↦[(sM : Memref sig .tc .vmem S256x256 .bf16).view.set]{fullShare} staged m ρ c) := by
  rw [payload_send]; rfl
theorem pay_recv_own (c : Dev nD) (u : Unit) : (xRd (F := F) m ρ).payload (recvCell c) 0 u
    = ((rM : Memref sig .tc .vmem S256x256 .bf16).view.loc (c : Thread nD τ) ↦[(rM : Memref sig .tc .vmem S256x256 .bf16).view.set]{fullShare} landed m ρ c) := by
  rw [payload_recv]; rfl
theorem pay_recv_mate (c : Dev nD) (u : Unit) : (xRd (F := F) m ρ).payload (recvCell (peer c)) 0 u
    = ((rM : Memref sig .tc .vmem S256x256 .bf16).view.loc (peer c : Thread nD τ) ↦[(rM : Memref sig .tc .vmem S256x256 .bf16).view.set]{fullShare} staged m ρ c) := by
  rw [payload_recv]; unfold recvPay rcvPts landed; rw [peer_peer]

attribute [local sl_rounds] duties_bar duties_send duties_recv amount_bar amount_send amount_recv expect_bar expect_send expect_recv
  pay_bar_own pay_send_own pay_recv_own
attribute [local sl_rounds high] pay_bar_mate pay_recv_mate
attribute [local sl_canon] dev1_eq dev2_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs payToks
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hstg⟩, ⟨%fr0, Hrcv⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ stgPts rcvPts
  ihave Hx' := (Entails.of_eq (whole_pts_eq (F := F) c cc0_stg0_0 (xstg m ρ c)).symm) $$ Hx
  ihave Hout' := (Entails.of_eq (whole_pts_eq (F := F) c cc0_stg1_0 g1).symm) $$ Hout
  have hmwB := mayWait_bar (F := F) c
  sl_unfold [cc0_body]
  sl_exec
  rw [staged_write]
  sl_exec (disch := simp only [dev2_eq])
  -- the staged result is the canon of its two stores
  ihave Hout' := (Entails.of_eq (congrArg (fun X => ((View.loc (c : Thread nD τ) (Memref.whole cc0_stg1_0 : Memref sig .tc .vmem S512x256 .f32).view
      ↦[(Memref.whole cc0_stg1_0 : Memref sig .tc .vmem S512x256 .f32).view.set]{fullShare} X : sProp 𝕄))) (out_writes m ρ c g1))) $$ Hout'
  -- the two own cells close: their counters at zero are the device's again
  imod (Rounds.cell_close ER (xRd m ρ) (Set.mem_univ (K (c, 1))) (fun h => h) (R := 1) (duties_later m ρ (sendCell c))) $$ [HatS] with HzS
  · isplitr; · iexact HIsnd
    iexact HatS
  imod (Rounds.cell_close ER (xRd m ρ) (Set.mem_univ (K (c, 2))) (fun h => h) (R := 1) (duties_later m ρ (recvCell c))) $$ [HatV] with HzV
  · isplitr; · iexact HIrcv
    iexact HatV
  rw [wp_ret]; imodintro
  iapply Hk
  unfold bodyPost Φ₁ Dat.owesAt Pipeline.owesWithin stgPts rcvPts
  rw [show (dats m ρ 0 c).owed t₀.succ = 0 from rfl]
  ihave Hx := (Entails.of_eq (whole_pts_eq (F := F) c cc0_stg0_0 (xstg m ρ c))) $$ Hx'
  ihave Hout := (Entails.of_eq (whole_pts_eq (F := F) c cc0_stg1_0 (outAt m ρ c))) $$ Hout'
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hs, Hr⟩, Ho, Hx, Hout⟩
  iapply (sound_body m ρ K c fun _ => bodyPost m ρ c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

end Body

/-- info: 'Cert.KernelIdealProof.body_obligation' depends on axioms: [propext, Classical.choice, Quot.sound] -/
#guard_msgs in #print axioms body_obligation

end Cert.KernelIdealProof

end
-- ==== Proof.KernelIdealLaunch.lean ====
/-
# The launch: the exchange's cells allocated for all devices at once, the debts dealt, the run of @main

The barrier semaphore is the runtime's (not scoped to the launch): its counter at zero arrives with the launch's
unscoped semaphores, the send and receive semaphores with the kernel's own. All three cells of every device are
allocated under one update, the duty tokens dealt to the devices that pay them (the barrier's and the receive
cell's to the mate, the send cell's to the device itself), and the launch credit read off what the mates owe.
-/
import proofs.«900493_g7700000000000494_dist_a2a_v7x_xyz2x4x4_x_m256_n256_f32_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩
def xToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf xCells xToks)

/-- The duty tokens of device `c`'s own cells. -/
def toks (c : Dev nD) : sProp 𝕄 := iprop(dutyTok ER (barCell c) 0 () ∗ dutyTok ER (sendCell c) 0 () ∗ dutyTok ER (recvCell c) 0 ())

/-- What the launch element deals device `c`; -/
def G (c : Dev nD) : sProp 𝕄 :=
  iprop((bigSep Finset.univ fun k : Fin 3 => roundState ER (xRd m ρ) (kcell (c, k)) 0)
    ∗ (bigSep Finset.univ fun k : Fin 3 => iprop(atPos ER (kcell (c, k)) 0 ∅ 0 ∗ reached ER (kcell (c, k)) 0)) ∗ toks c)
/-- what the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xRd m ρ) (K ck) (kcell ck))
    ∗ bigSep Finset.univ fun ck : Dev nD × Fin 3 => reached ER (kcell ck) 0)
instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (xRd m ρ) (K ck) (kcell ck) : sProp 𝕄)) ⊢ cellInv ER (xRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear G' ghost invs
  iintro ⟨⟨#HI, #HR⟩, ⟨HaB, HaS, HaV⟩, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  iexact Ht

omit [FloatOps F] in
/-- The barrier and receive tokens swapped between mates. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_univ_equiv swap (fun c : Dev nD => (dutyTok ER (barCell c) 0 () : sProp 𝕄)),
    bigSep_univ_equiv swap (fun c : Dev nD => (dutyTok ER (recvCell c) 0 () : sProp 𝕄))]
  iintro ⟨HB, HS, HV⟩
  isplitl [HB]; · iexact HB
  isplitl [HV]; · iexact HV
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (xRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
/-- What device `d` owes device `c`'s barrier cell: a unit if it is `c`'s mate; -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]
omit [FloatOps F] in
/-- its receive cell: the block's credit if it is `c`'s mate. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) : (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩, ⟨%g, Hg⟩⟩
  isplitl [Hs]; · iexact Hs
  isplitl [Hf]
  · iexists f; rw [stgPts_eq]; iexact Hf
  · iexists g; rw [rcvPts_eq]; iexact Hg

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hs, Hr, HzS, HzV⟩
  isplitr; · iempintro
  isplitl [HzS HzV]
  · isplitl [HzS] <;> iassumption
  isplitl [Hs]
  · iexists (staged m ρ c); rw [← stgPts_eq]; iexact Hs
  · iexists (landed m ρ c); rw [← rcvPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: every weakly
    fair execution of @main — the sixteen pairs of mates handshaking on the barrier semaphore, then exchanging their
    staged halves — terminates, and every final state has each device's result array at the computed contents and its
    argument unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdealValue.lean ====
/-
# The value: each device's result is its block of columns of the whole argument array

After the run the result array of device `c` is what the body left in its staged result: the device's own
columns of its own rows in its own block of rows, and — through the exchange — its columns of the mate's rows
in the other block of rows (narrowing and widening a float change nothing over the extended reals). Device `c`
holds the rows `[256 (c / 16), 256 (c / 16) + 256)` of the whole array and must end with the columns of the same
range: entry `(r, q)` of the result is entry `(r, 256 (c / 16) + q)` of the whole array in both blocks of rows.
-/
import proofs.«900493_g7700000000000494_dist_a2a_v7x_xyz2x4x4_x_m256_n256_f32_1_alg».proof.Proof.KernelIdealLaunch
import Idealize.ShloMosaic.Lib.Layout
import Idealize.ShloMosaic.Lib.ValueIdx
import Idealize.ShloMosaic.Lib.Pipeline.Value
import Idealize.ShloMosaic.PureOps.Ideal

noncomputable section

namespace Cert.KernelIdealProof

open Cert.KernelIdeal Cert.KernelIdeal.Gen
open Idealize.ShloMosaic
open Idealize.ShloMosaic.TcCoe
open Idealize.SL Idealize.SL.Sem
open Idealize.ShloMosaic.Pipeline (Dat Cfg Window)
open Idealize.ShloMosaic.Layout

/-! ## The result array after the run, at any float instance -/

section AnyInstance

variable {F : FTy → Type} [FloatOps F]
variable (m : (ℓ : Loc nD τ sig) → Buf (Elt F) ℓ) (ρ : Dev nD → PrngReg)

theorem after_out (c : Dev nD) : (dats m ρ 0 c).after (1 : Fin 2) t₀ = outAt m ρ c := rfl
theorem flushed_cut (c : Dev nD) : (dats m ρ 0 c).flushed (1 : Fin 2) t₀ = (cfg0.win 1).cut (grid0.coords t₀) ((dats m ρ 0 c).after (1 : Fin 2) t₀) := rfl
/-- The window is not cut: what the one point writes back is all of what the body left. -/
theorem flushed_out (c : Dev nD) : (dats m ρ 0 c).flushed (1 : Fin 2) t₀ = outAt m ρ c := by
  rw [flushed_cut, after_out]
  funext j
  exact congrArg (outAt m ρ c) (funext fun a => rfl)

omit [FloatOps F] in
/-- The result window's one block is the whole array. -/
theorem blk_emb (i : S512x256.Idx) : ((cfg0.win 1).blk t₀).view.emb i = i := by
  funext a; apply Fin.ext
  match a with
  | ⟨0, _⟩ => show 0 * 512 + 1 * (i 0).val = (i 0).val; omega
  | ⟨1, _⟩ => show 0 * 256 + 1 * (i 1).val = (i 1).val; omega

/-- The result array after the run is what the body left in the staged result. -/
theorem finalA_out (c : Dev nD) : finalA m ρ c (1 : Fin 2) = outAt m ρ c := by
  unfold finalA
  rw [show cfg0.N = t₀.val + 1 from rfl, (dats m ρ 0 c).arrAt_succ (1 : Fin 2) t₀, if_pos (flush0_1 t₀), flushed_out]
  funext i
  have h := View.write_emb_of_mem (v := ((cfg0.win 1).blk t₀).view) (Val := Elt F) ((dats m ρ 0 c).arrAt 1 t₀.val) (outAt m ρ c) (M := Finset.univ) (x := i) (Finset.mem_univ _)
  rw [blk_emb] at h
  exact h

end AnyInstance

/-! ## At the ideal instance -/

variable (m : (ℓ : Loc nD τ sig) → Buf (Elt Ideal) ℓ) (ρ : Dev nD → PrngReg)

/-! ## Index facts of the mesh -/

theorem mesh_row (c : Dev nD) : meshLin [2, 4, 4] c.val [0] = c.val / 16 := by revert c; decide
theorem peer_div (c : Dev nD) : (peer c).val / 16 = 1 - c.val / 16 := by revert c; decide
theorem div_le (c : Dev nD) : c.val / 16 ≤ 1 := by have : c.val < 32 := c.isLt; omega

theorem blk0_emb (j : S256x512.Idx) : (win0_0.blk (0 : Fin 1)).view.emb j = j := by
  funext a; apply Fin.ext
  match a with
  | ⟨0, _⟩ => show 0 * 256 + 1 * (j 0).val = (j 0).val; omega
  | ⟨1, _⟩ => show 0 * 512 + 1 * (j 1).val = (j 1).val; omega

/-- The staged input is the argument block. -/
theorem xstg_apply (c : Dev nD) (j : S256x512.Idx) : xstg m ρ c j = m ((c : Thread nD τ).loc main_arg0) j := by
  show m ((c : Thread nD τ).loc main_arg0) ((win0_0.blk (0 : Fin 1)).view.emb j) = _
  rw [blk0_emb]

/-- The whole argument array, and each device's block of rows of it. -/
abbrev ST : Shape := ⟨2, ![512, 512]⟩
abbrev rowsOf (c : Dev nD) (X : ST.Idx → Elt Ideal .f32) : S256x512.Idx → Elt Ideal .f32 :=
  blockN ⟨2, ![256, 512]⟩ ⟨2, ![512, 512]⟩ (meshBlock [2, 4, 4] ![[0], []] c) X
abbrev colsOf (c : Dev nD) (X : ST.Idx → Elt Ideal .f32) : S512x256.Idx → Elt Ideal .f32 :=
  blockN ⟨2, ![512, 256]⟩ ⟨2, ![512, 512]⟩ (meshBlock [2, 4, 4] ![[], [0]] c) X

variable (X : ST.Idx → Elt Ideal .f32) (hm : ∀ c : Dev nD, m ((c : Thread nD τ).loc main_arg0) = rowsOf c X)

/-- Entry `(p, q)` of device `c`'s rows is entry `(256 (c / 16) + p, q)` of the whole array; -/
theorem rows_apply (c : Dev nD) (j : S256x512.Idx) (i : ST.Idx)
    (h0 : (i 0).val = 256 * (c.val / 16) + (j 0).val) (h1 : (i 1).val = (j 1).val) : rowsOf c X j = X i := by
  show X _ = X i
  refine congrArg X (funext fun b => Fin.ext ?_)
  match b with
  | ⟨0, _⟩ =>
    show meshLin [2, 4, 4] c.val [0] * 256 + (j 0).val = (i 0).val
    rw [mesh_row, h0]; omega
  | ⟨1, _⟩ =>
    show meshLin [2, 4, 4] c.val [] * 512 + (j 1).val = (i 1).val
    rw [h1]; show 0 * 512 + (j 1).val = (j 1).val; omega

/-- entry `(p, q)` of its columns is entry `(p, 256 (c / 16) + q)`. -/
theorem cols_apply (c : Dev nD) (j : S512x256.Idx) (i : ST.Idx)
    (h0 : (i 0).val = (j 0).val) (h1 : (i 1).val = 256 * (c.val / 16) + (j 1).val) : colsOf c X j = X i := by
  show X _ = X i
  refine congrArg X (funext fun b => Fin.ext ?_)
  match b with
  | ⟨0, _⟩ =>
    show meshLin [2, 4, 4] c.val [] * 512 + (j 0).val = (i 0).val
    rw [h0]; show 0 * 512 + (j 0).val = (j 0).val; omega
  | ⟨1, _⟩ =>
    show meshLin [2, 4, 4] c.val [0] * 256 + (j 1).val = (i 1).val
    rw [mesh_row, h1]; omega

/-- Entry `j` of device `c`'s rows is entry `j'` of device `c'`'s columns when the two name one entry of the whole array. -/
theorem rows_eq_cols (c c' : Dev nD) (j : S256x512.Idx) (j' : S512x256.Idx)
    (h0 : 256 * (c.val / 16) + (j 0).val = (j' 0).val) (h1 : (j 1).val = 256 * (c'.val / 16) + (j' 1).val) :
    rowsOf c X j = colsOf c' X j' := by
  show X _ = X _
  refine congrArg X (funext fun b => Fin.ext ?_)
  match b with
  | ⟨0, _⟩ =>
    show meshLin [2, 4, 4] c.val [0] * 256 + (j 0).val = meshLin [2, 4, 4] c'.val [] * 512 + (j' 0).val
    rw [mesh_row]; show c.val / 16 * 256 + (j 0).val = 0 * 512 + (j' 0).val; omega
  | ⟨1, _⟩ =>
    show meshLin [2, 4, 4] c.val [] * 512 + (j 1).val = meshLin [2, 4, 4] c'.val [0] * 256 + (j' 1).val
    rw [mesh_row]; show 0 * 512 + (j 1).val = c'.val / 16 * 256 + (j' 1).val; omega

include hm in
/-- The own block of rows of the result: the own columns of the device's rows. -/
theorem piece_top (c : Dev nD) (x : S256x256.Idx) : k0_pay1 (ownLd m ρ c) x = colsOf c X ((rTop c).emb x) := by
  show (shapeCast S256x256 (ownLd m ρ c) shapeCasts_S256x256_S256x256) x = _
  rw [shapeCast_self]
  show xstg m ρ c ((rOwn c).emb x) = _
  rw [xstg_apply, hm c]
  refine rows_eq_cols X c c _ _ ?_ ?_
  · show 256 * (c.val / 16) + (k0_off2 c 0 + 1 * (x 0).val) = k0_off3 c 0 + 1 * (x 0).val
    rw [k0_off2_eq, k0_off3_eq]; show 256 * (c.val / 16) + (0 + 1 * (x 0).val) = 256 * (c.val / 16) + 1 * (x 0).val; omega
  · show k0_off2 c 1 + 1 * (x 1).val = 256 * (c.val / 16) + (k0_off3 c 1 + 1 * (x 1).val)
    rw [k0_off2_eq, k0_off3_eq]; show 256 * (c.val / 16) + 1 * (x 1).val = 256 * (c.val / 16) + (0 + 1 * (x 1).val); omega

/-- What a device loads of its mate's columns. -/
abbrev mateLd (c : Dev nD) : Vec Ideal S256x256 .f32 :=
  (xM : Memref sig .tc .vmem S256x512 .f32).view.readAt (Elt Ideal) (rMate c).toLoadRect (xstg m ρ c)

include hm in
/-- The mate's block of rows of the result: what the mate staged — its own rows at this device's columns. -/
theorem piece_bot (c : Dev nD) (x : S256x256.Idx) : k0_pay2 (landLd m ρ c) x = colsOf c X ((rBot c).emb x) := by
  show (extf .f32 (landLd m ρ c) bitsLt_bf16_f32 : FVec Ideal S256x256 .f32) x = _
  rw [ValueIdx.extf_apply]
  have hl : landLd m ρ c = landed m ρ c := Memref.readAt_unit_zero (Elt Ideal) cc0_scratch1 hz2 _ (landed m ρ c)
  rw [hl]
  show (shapeCast S256x256 (truncf .bf16 (shapeCast S256x256 (mateLd m ρ (peer c)) shapeCasts_S256x256_S256x256)
        bitsLt_bf16_f32) shapeCasts_S256x256_S256x256 : FVec Ideal S256x256 .bf16) x = _
  rw [shapeCast_self, ValueIdx.truncf_apply, shapeCast_self]
  show xstg m ρ (peer c) ((rMate (peer c)).emb x) = _
  rw [xstg_apply, hm (peer c)]
  have ha := div_le c
  refine rows_eq_cols X (peer c) c _ _ ?_ ?_
  · show 256 * ((peer c).val / 16) + (k0_off1 (peer c) 0 + 1 * (x 0).val) = k0_off4 c 0 + 1 * (x 0).val
    rw [k0_off1_eq, k0_off4_eq, peer_div]
    show 256 * (1 - c.val / 16) + (0 + 1 * (x 0).val) = (256 - 256 * (c.val / 16)) + 1 * (x 0).val; omega
  · show k0_off1 (peer c) 1 + 1 * (x 1).val = 256 * (c.val / 16) + (k0_off4 c 1 + 1 * (x 1).val)
    rw [k0_off1_eq, k0_off4_eq, peer_div]
    show (256 - 256 * (1 - c.val / 16)) + 1 * (x 1).val = 256 * (c.val / 16) + (0 + 1 * (x 1).val); omega

include hm in
/-- THE VALUE: after the body the staged result of device `c` is its block of columns of the whole argument array. -/
theorem out_value (c : Dev nD) : outAt m ρ c = colsOf c X := by
  funext y
  refine View.canon_apply_of_pieces (colsOf c X) _ (fun p hp x => ?_) y ?_
  · rcases List.mem_cons.mp hp with rfl | hp
    · exact piece_bot m ρ X hm c x
    · rw [List.mem_singleton] at hp; subst hp
      exact piece_top m ρ X hm c x
  · rcases cover_out c y with h | h
    · exact ⟨_, List.mem_cons_self .., h⟩
    · exact ⟨_, List.mem_cons_of_mem _ (List.mem_cons_self ..), h⟩

/-- info: 'Cert.KernelIdealProof.out_value' depends on axioms: [propext, Classical.choice, Quot.sound] -/
#guard_msgs in #print axioms out_value

end Cert.KernelIdealProof

end
-- ==== Proof.RefRun.lean ====
/-
# The reference's run

The reference returns its argument: @main has no operation, so every execution ends at once with the memory as
launched.
-/
import proofs.«900493_g7700000000000494_dist_a2a_v7x_xyz2x4x4_x_m256_n256_f32_1_alg».proof.Proof.Gen.ReferenceIdeal
import Idealize.ShloMosaic.Lib.StableHlo.Run

noncomputable section

namespace Cert.ReferenceIdealProof

open Cert.ReferenceIdeal Cert.ReferenceIdeal.Gen Idealize.ShloMosaic Idealize.ShloMosaic.TcCoe Idealize.SL.Sem Idealize.ShloMosaic.StableHlo

variable {F : FTy → Type} [FloatOps F]

/-- @main's operations: none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates with the argument array
    unchanged (it is also the result). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by after_results))
    (run_seq scopedRefs_eq scopedSems_eq defs main (fun _ => ops) main_eq (fun _ => trivial) m ρ)

/-- info: 'Cert.ReferenceIdealProof.run' depends on axioms: [propext, Classical.choice, Quot.sound] -/
#guard_msgs in #print axioms run

end Cert.ReferenceIdealProof

end
-- ==== Proof.lean ====
/-
# The certificate of the two-device column swap on the 2 × 4 × 4 mesh

Each device holds a block of 256 rows of a 512 × 512 array (the block its first mesh coordinate names) and must
end holding the block of 256 columns of the same name. A device keeps the own columns of its rows and sends the
other columns, through a scratch in the short float format, to its mate (the device with the other first
coordinate), after a handshake on the barrier semaphore; what it receives fills the other half of its result.
The reference returns its argument.

* The three frames: the kernel's run at either float instance (the exchange under the rounds discipline, every
  device owing its mate one barrier unit and one block's credit at launch), and the reference's empty run.
* The idealization rewrote nothing, so it preserves the kernel trivially.
* Over the extended reals the narrowing and widening are the identity, and the result of device `c` is entry by
  entry its block of columns of the whole array.
-/
import proofs.«900493_g7700000000000494_dist_a2a_v7x_xyz2x4x4_x_m256_n256_f32_1_alg».proof.Defs
import proofs.«900493_g7700000000000494_dist_a2a_v7x_xyz2x4x4_x_m256_n256_f32_1_alg».proof.Proof.KernelLaunch
import proofs.«900493_g7700000000000494_dist_a2a_v7x_xyz2x4x4_x_m256_n256_f32_1_alg».proof.Proof.KernelIdealValue
import proofs.«900493_g7700000000000494_dist_a2a_v7x_xyz2x4x4_x_m256_n256_f32_1_alg».proof.Proof.RefRun
import proofs.«900493_g7700000000000494_dist_a2a_v7x_xyz2x4x4_x_m256_n256_f32_1_alg».proof.Proof.Gen.Pre_finite_inputs_Kernel
import proofs.«900493_g7700000000000494_dist_a2a_v7x_xyz2x4x4_x_m256_n256_f32_1_alg».proof.Proof.Gen.Pre_finite_inputs_ReferenceIdeal
import Idealize.ShloMosaic.Adequacy
import Idealize.ShloMosaic.Init

noncomputable section

namespace Cert.Proof

open Idealize.ShloMosaic Idealize.SL.Sem

/-- The kernel as printed runs, and its argument ends unchanged. -/
theorem frame_kernel : Cert.frame_Kernel (hKernel := Cert.Kernel.Gen.facts) (hPre_finite_inputs_Kernel := Cert.Pre_finite_inputs_Kernel.Gen.facts) :=
  fun m g _ => (θ_run (Cert.Kernel.defs (F := Bits)) _ _).mono
    (fun r h c => (h c 0).trans (Cert.KernelProof.finalA_x m g c))
    (Cert.KernelProof.run_main (F := Bits) m g)

/-- The idealized kernel runs, and its argument ends unchanged. -/
theorem frame_kernelIdeal : Cert.frame_KernelIdeal (hKernelIdeal := Cert.KernelIdeal.Gen.facts) (hPre_finite_inputs_Kernel := Cert.Pre_finite_inputs_Kernel.Gen.facts) :=
  fun m g _ => (θ_run (Cert.KernelIdeal.defs (F := Ideal)) _ _).mono
    (fun r h c => (h c 0).trans (Cert.KernelIdealProof.finalA_x m g c))
    (Cert.KernelIdealProof.run_main (F := Ideal) m g)

/-- The reference runs, and its argument ends unchanged. -/
theorem frame_reference : Cert.frame_ReferenceIdeal (hReferenceIdeal := Cert.ReferenceIdeal.Gen.facts) (hPre_finite_inputs_ReferenceIdeal := Cert.Pre_finite_inputs_ReferenceIdeal.Gen.facts) :=
  fun m g _ => Cert.ReferenceIdealProof.run (F := Ideal) m g

/-- Both run; the reference's result is its argument, and each device's result is its block of columns of it. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m g m' g' _ hagree =>
    ⟨m' (((0 : Dev Cert.ReferenceIdeal.nD).tc : Thread Cert.ReferenceIdeal.nD Cert.ReferenceIdeal.τ).loc Cert.ReferenceIdeal.main_arg0),
      (θ_run (Cert.KernelIdeal.defs (F := Ideal)) _ _).mono
        (fun r h c => ⟨((h c 1).trans (Cert.KernelIdealProof.finalA_out m g c)).trans
            (Cert.KernelIdealProof.out_value m g _ hagree c),
          (h c 0).trans (Cert.KernelIdealProof.finalA_x m g c)⟩)
        (Cert.KernelIdealProof.run_main (F := Ideal) m g),
      (θ_run (Cert.ReferenceIdeal.defs (F := Ideal)) _ _).mono (fun r h => ⟨h 0, h 0⟩)
        (Cert.ReferenceIdealProof.run (F := Ideal) m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_reference, trivial, algebraic⟩

end Cert.Proof

end
